-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x256 : Shape := ⟨3, ![8, 512, 256]⟩
abbrev S8x2048x512 : Shape := ⟨3, ![8, 2048, 512]⟩
abbrev S_ : Shape := ⟨0, ![]⟩

class Facts : Prop where
  bcast_S_S8x512x256 : S_.BroadcastsInDim S8x512x256 (![] : Fin 0 → Fin S8x512x256.rank)
  reducesTo_S8x512x256_S_d0_1_2 : S8x512x256.ReducesTo [0, 1, 2] S_
  h_S_ : 0 < S_.numel
  bcast_S_S8x2048x512 : S_.BroadcastsInDim S8x2048x512 (![] : Fin 0 → Fin S8x2048x512.rank)
  reducesTo_S8x2048x512_S_d0_1_2 : S8x2048x512.ReducesTo [0, 1, 2] S_

variable [Facts]

def fn {F : FTy → Type} [FloatOps F] (main_arg0 : FVec F S8x512x256 .f32) (main_arg1 : FVec F S8x2048x512 .f32) : IVec S_ 1 :=
  let main_v0 : FVec F S8x512x256 .f32 := Host.absf main_arg0
  let main_cst : FVec F S_ .f32 := constant S_ .f32 0x7F800000#32
  let main_v1 : FVec F S8x512x256 .f32 := broadcastInDim S8x512x256 ![] bcast_S_S8x512x256 main_cst
  let main_v2 : IVec S8x512x256 1 := cmpf .olt main_v0 main_v1
  let main_c : IVec S_ 1 := constantI S_ 1 1#1
  let main_v3 : IVec S_ 1 := (fun x v => Host.reduce IntOp.andi x v reducesTo_S8x512x256_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  main_v8
-- ==== Kernel.lean ====
abbrev S8x512x256 : Shape := ⟨3, ![8, 512, 256]⟩
abbrev S8x2048x512 : Shape := ⟨3, ![8, 2048, 512]⟩
abbrev S8x2048x256 : Shape := ⟨3, ![8, 2048, 256]⟩
abbrev S1x512x512 : Shape := ⟨3, ![1, 512, 512]⟩
abbrev S1x512x256 : Shape := ⟨3, ![1, 512, 256]⟩
abbrev S512x512 : Shape := ⟨2, ![512, 512]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8x512x256, .f32⟩
  | .hbm, ⟨1, _⟩ => ⟨S8x2048x512, .f32⟩
  | .hbm, ⟨2, _⟩ => ⟨S8x2048x256, .f32⟩
  | .local _ .vmem, ⟨0, _⟩ => ⟨S1x512x512, .f32⟩
  | .local _ .vmem, ⟨1, _⟩ => ⟨S1x512x512, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x512.size a
  hwx0_0 : ∀ i : grid0.Coords, EltTy.bits .f32 = 32 ∨ (Rect.block (s := S8x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S8x512x256.size a
  hwx0_1 : ∀ i : grid0.Coords, EltTy.bits .f32 = 32 ∨ (Rect.block (s := S8x512x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S8x2048x256.size a
  hwx0_2 : ∀ i : grid0.Coords, EltTy.bits .f32 = 32 ∨ (Rect.block (s := S8x2048x256) S1x512x256.size (cc0_transform_2 i) (hinb0_2 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg1) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x256 : Shape := ⟨3, ![8, 512, 256]⟩
abbrev S8x2048x512 : Shape := ⟨3, ![8, 2048, 512]⟩
abbrev S8x2048x256 : Shape := ⟨3, ![8, 2048, 256]⟩

abbrev nBuf : Space → Nat
  | .hbm => 3
  | .vmem => 0
  | .smem => 0
  | _ => 0

abbrev bufTy : (tb : Table) → Fin (tcTables nBuf tb) → BufTy
  | .hbm, ⟨0, _⟩ => ⟨S8x512x256, .f32⟩
  | .hbm, ⟨1, _⟩ => ⟨S8x2048x512, .f32⟩
  | .hbm, ⟨2, _⟩ => ⟨S8x2048x256, .f32⟩
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x2048x512_S8x512x256_S8x2048x256_2_1_1_2_0_0_wf : DotDims.WF S8x2048x512 S8x512x256 S8x2048x256 [2] [1] [1] [2] [0] [0]

variable [Facts₀]

def dot_S8x2048x512_S8x512x256_S8x2048x256_2_1_1_2_0_0 : DotDims S8x2048x512 S8x512x256 S8x2048x256 where
  lhsContracting := [2]
  rhsContracting := [1]
  lhsNonContracting := [1]
  rhsNonContracting := [2]
  lhsBatch := [0]
  rhsBatch := [0]
  wf := dot_S8x2048x512_S8x512x256_S8x2048x256_2_1_1_2_0_0_wf

class Facts : Prop extends Facts₀ where

variable [Facts]
-- ==== Proof.BatchedProduct.lean ====
import Idealize.ShloMosaic.PureOps.Ideal
import Idealize.ShloMosaic.Lib.ValueIdx

noncomputable section

open scoped BigOperators

/-! # The batched matrix product as one function of its two arrays

Eight batches; in batch `b` the `2048 × 512` alignment matrix multiplies the `512 × 256` text matrix. Entry
`(b, l, c)` of the result is the sum over the 512 text positions `k` of `alignment (b, l, k) * text (b, k, c)`, on the
extended reals. Both programs are shown to end with exactly this array. -/

namespace Cert.Bmm

open Idealize.ShloMosaic Idealize.ShloMosaic.ValueIdx

/-- The batched product of `alignment : [8, 2048, 512]` with `text : [8, 512, 256]`, entry by entry. -/
def bmm (text : (⟨3, ![8, 512, 256]⟩ : Shape).Idx → EReal) (alignment : (⟨3, ![8, 2048, 512]⟩ : Shape).Idx → EReal) :
    (⟨3, ![8, 2048, 256]⟩ : Shape).Idx → EReal :=
  fun j => ∑ k : Fin 512, alignment (ix3 (j 0) (j 1) k) * text (ix3 (j 0) k (j 2))

end Cert.Bmm

end
-- ==== Proof.ReferenceProduct.lean ====
import proofs.«167559_g20229295964416_cont_8to1_1184_2_alg».proof.Proof.Gen.ReferenceIdeal.Read
import proofs.«167559_g20229295964416_cont_8to1_1184_2_alg».proof.Proof.BatchedProduct

noncomputable section

open scoped BigOperators

/-! # The reference computes the batched product

The reference is one general product, batched on the first axis of both operands and contracting the last axis of the
alignment array with the middle axis of the text array. Read at an entry `(b, l, c)` it is the sum over `k` of
`alignment (b, l, k) * text (b, k, c)`: the two index functions the read lemma uses are those triples of coordinates. -/

namespace Cert.Bmm

open Idealize.ShloMosaic Idealize.ShloMosaic.ValueIdx Cert.ReferenceIdeal Cert.ReferenceIdeal.Read

/-- The left operand is read at `(b, l, k)`. -/
theorem lidx_eq (i : S8x2048x256.Idx) (k : Fin 512) : lidx_main_v0 i k = ix3 (i 0) (i 1) k :=
  funext fun a => match a with | ⟨0, _⟩ => rfl | ⟨1, _⟩ => rfl | ⟨2, _⟩ => rfl

/-- The right operand is read at `(b, k, c)`. -/
theorem ridx_eq (i : S8x2048x256.Idx) (k : Fin 512) : ridx_main_v0 i k = ix3 (i 0) k (i 2) :=
  funext fun a => match a with | ⟨0, _⟩ => rfl | ⟨1, _⟩ => rfl | ⟨2, _⟩ => rfl

/-- The reference's result, as a function of its two arguments, is the batched product. -/
theorem reference_eq (x0 : (⟨S8x512x256, .f32⟩ : BufTy).Contents (Elt Ideal)) (x1 : (⟨S8x2048x512, .f32⟩ : BufTy).Contents (Elt Ideal)) :
    val_main_v0 (F := Ideal) x0 x1 = bmm x0 x1 := by
  funext i
  rw [val_main_v0_apply]
  show _ = ∑ k : Fin 512, x1 (ix3 (i 0) (i 1) k) * x0 (ix3 (i 0) k (i 2))
  exact Finset.sum_congr rfl fun k _ => by rw [lidx_eq, ridx_eq]; rfl

end Cert.Bmm

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.BlockProduct.lean ====
import Idealize.ShloMosaic.PureOps.Ideal.Laws
import Idealize.ShloMosaic.Lib.ValueIdx
import Idealize.ShloMosaic.Lib.ValueLayout
import proofs.«167559_g20229295964416_cont_8to1_1184_2_alg».proof.Proof.LibPlainDot

noncomputable section

open scoped BigOperators

/-! # One block of the product, entry by entry

A `[1, 512, 512]` block of alignment rows and a `[1, 512, 256]` block of text are each read as a matrix (the leading
unit axis dropped), multiplied into a zero accumulator, and the `[512, 256]` result is given its unit axis back. Entry
`(u, p, q)` of that is the sum over `k` of the first block at `(0, p, k)` times the second at `(0, k, q)`: dropping
and adding the unit axis move no entry, and a product into zero is the plain sum. -/

namespace Cert.Bmm

open Idealize.ShloMosaic Idealize.ShloMosaic.ValueIdx

/-- Entry `(u, p, q)` of the re-shaped product of two re-shaped blocks, for any dimension record that is the plain
    "rows by contraction, contraction by columns" one. -/
theorem block_product (d : DotDims ⟨2, ![512, 512]⟩ ⟨2, ![512, 256]⟩ ⟨2, ![512, 256]⟩) (hd : d = DotDims.plain 512 512 256)
    (h0 : (⟨3, ![1, 512, 512]⟩ : Shape).ShapeCasts ⟨2, ![512, 512]⟩)
    (h1 : (⟨3, ![1, 512, 256]⟩ : Shape).ShapeCasts ⟨2, ![512, 256]⟩)
    (h2 : (⟨2, ![512, 256]⟩ : Shape).ShapeCasts ⟨3, ![1, 512, 256]⟩)
    (x0 : FVec Ideal ⟨3, ![1, 512, 512]⟩ .f32) (x1 : FVec Ideal ⟨3, ![1, 512, 256]⟩ .f32)
    (u : Fin 1) (p : Fin 512) (q : Fin 256) :
    shapeCast ⟨3, ![1, 512, 256]⟩
        (matmul d none (shapeCast ⟨2, ![512, 512]⟩ x0 h0) (shapeCast ⟨2, ![512, 256]⟩ x1 h1)
          (constant ⟨2, ![512, 256]⟩ .f32 0x00000000#32)) h2 (ix3 u p q)
      = ∑ k : Fin 512, x0 (ix3 (0 : Fin 1) p k) * x1 (ix3 (0 : Fin 1) k q) := by
  rw [shapeCast_ab_1ab_apply]
  refine (Cert.PlainDot.matmul_zero_apply d hd none _ _ (ix2 p q)).trans ?_
  refine Finset.sum_congr rfl fun k _ => ?_
  show shapeCast ⟨2, ![512, 512]⟩ x0 h0 (ix2 p k) * shapeCast ⟨2, ![512, 256]⟩ x1 h1 (ix2 k q) = _
  rw [shapeCast_1ab_ab_apply, shapeCast_1ab_ab_apply]

end Cert.Bmm

end
-- ==== Proof.KernelProduct.lean ====
import proofs.«167559_g20229295964416_cont_8to1_1184_2_alg».proof.Proof.Gen.KernelIdeal.Value
import proofs.«167559_g20229295964416_cont_8to1_1184_2_alg».proof.Proof.BatchedProduct
import proofs.«167559_g20229295964416_cont_8to1_1184_2_alg».proof.Proof.BlockProduct

set_option maxRecDepth 16384

noncomputable section

open scoped BigOperators

/-! # The kernel computes the batched product

The grid has `8 × 4` points `(b, i)`. At a point the kernel holds rows `512 i … 512 i + 511` of batch `b` of the
alignment array and the whole of batch `b` of the text array, and writes their matrix product to rows
`512 i … 512 i + 511` of batch `b` of the result. So what a point writes back is its block of the batched product
(`flushed_eq`); every entry of the result lies in some point's block, the one with `b` its batch and `i` its row
divided by 512 (`cover`); hence the whole array ends as the batched product (`final`, `run`). -/

namespace Cert.Bmm

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets_zero : (![0, 0, 0] : Fin 3 → Nat) = fun _ => 0 := funext fun a => by fin_cases a <;> rfl

/-- The product's dimension numbers are the plain ones: rows by contraction, contraction by columns. -/
theorem dims_plain : dot_S512x512_S512x256_S512x256_1_0_0_1_n_n = DotDims.plain 512 512 256 := rfl

/-- The value the body stores, at entry `(u, p, q)` of the block: the product of the two loaded blocks. -/
theorem stored_apply (x0 : FVec Ideal S1x512x512 .f32) (x1 : FVec Ideal S1x512x256 .f32) (u : Fin 1) (p : Fin 512) (q : Fin 256) :
    k0_pay1 (F := Ideal) x0 x1 (ix3 u p q) = ∑ k : Fin 512, x0 (ix3 (0 : Fin 1) p k) * x1 (ix3 (0 : Fin 1) k q) := by
  unfold k0_pay1
  exact block_product _ dims_plain _ _ _ x0 x1 u p q

/-- If the first loaded block holds, in its row `y 1`, row `j 1` of batch `j 0` of the alignment array, and the second,
    in its column `y 2`, column `j 2` of batch `j 0` of the text array, the stored value at `y` is the batched product
    at `j`. -/
theorem stored_eq_bmm (text : S8x512x256.Idx → EReal) (alignment : S8x2048x512.Idx → EReal)
    (x0 : FVec Ideal S1x512x512 .f32) (x1 : FVec Ideal S1x512x256 .f32) (y : S1x512x256.Idx) (j : S8x2048x256.Idx)
    (hx0 : ∀ k : Fin 512, x0 (ix3 (0 : Fin 1) (y 1) k) = alignment (ix3 (j 0) (j 1) k))
    (hx1 : ∀ k : Fin 512, x1 (ix3 (0 : Fin 1) k (y 2)) = text (ix3 (j 0) k (j 2))) :
    k0_pay1 (F := Ideal) x0 x1 y = bmm text alignment j := by
  have hy : k0_pay1 (F := Ideal) x0 x1 y = k0_pay1 (F := Ideal) x0 x1 (ix3 (y 0) (y 1) (y 2)) := congrArg _ (eq_ix3 y)
  refine (hy.trans (stored_apply x0 x1 (y 0) (y 1) (y 2))).trans ?_
  show _ = ∑ k : Fin 512, alignment (ix3 (j 0) (j 1) k) * text (ix3 (j 0) k (j 2))
  exact Finset.sum_congr rfl fun k _ => congrArg₂ (fun a b : EReal => a * b) (hx0 k) (hx1 k)

/-- The three index maps over the grid: the alignment window moves with the output window on the batch and row-block
    axes and stays at 0 on the last; the text window moves with it on the batch axis and stays at 0 on the others; the
    output window stays at 0 on its last axis, its batch index below 8 and its row-block index below 4. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) < 8
    ∧ win0_2.index t (1 : Fin 3) < 4 :=
  (by decide +kernel : ∀ t : Fin grid0.N, _)

/-- Every pair of a batch and a row block is some point's output block. -/
theorem index_onto : ∀ (b : Fin 8) (i : Fin 4), ∃ t : Fin cfg0.N, win0_2.index t = ![b.val, i.val, 0] :=
  (by decide +kernel : ∀ (b : Fin 8) (i : Fin 4), ∃ t : Fin grid0.N, win0_2.index t = ![b.val, i.val, 0])

/-- What point `t` writes back is its block of the batched product of the two argument arrays. -/
theorem flushed_eq (c : Dev nD) (t : Fin cfg0.N) :
    (dats m 0 c).flushed 2 t = ((cfg0.win 2).blk t).view.read (Elt Ideal) (bmm (V m c main_arg0) (V m c main_arg1)) := by
  rw [Cert.KernelIdeal.Value.flushed2]
  unfold out0_2
  rw [View.canon_unit_zero offsets_zero]
  simp only [View.ld_unit_zero (S := S1x512x512) offsets_zero, View.ld_unit_zero (S := S1x512x256) offsets_zero]
  obtain ⟨e00, e01, e02, e10, e11, e12, e22, -, -⟩ := index_facts t
  funext y
  show k0_pay1 (F := Ideal) (iblk m c 0 t) (iblk m c 1 t) y = bmm (V m c main_arg0) (V m c main_arg1) (((cfg0.win 2).blk t).view.emb y)
  refine stored_eq_bmm (V m c main_arg0) (V m c main_arg1) (iblk m c 0 t) (iblk m c 1 t) y _ ?_ ?_
  · intro k
    show V m c main_arg1 (((cfg0.win 0).blk t).view.emb (ix3 (0 : Fin 1) (y 1) k)) = V m c main_arg1 _
    refine congrArg _ (funext fun a => Fin.ext ?_)
    match a with
    | ⟨0, _⟩ => show win0_0.index t (0 : Fin 3) * 1 + 1 * 0 = win0_2.index t (0 : Fin 3) * 1 + 1 * (y 0).val; have hy0 : (y 0).val < 1 := (y 0).isLt; omega
    | ⟨1, _⟩ => show win0_0.index t (1 : Fin 3) * 512 + 1 * (y 1).val = win0_2.index t (1 : Fin 3) * 512 + 1 * (y 1).val; omega
    | ⟨2, _⟩ => show win0_0.index t (2 : Fin 3) * 512 + 1 * k.val = k.val; omega
  · intro k
    show V m c main_arg0 (((cfg0.win 1).blk t).view.emb (ix3 (0 : Fin 1) k (y 2))) = V m c main_arg0 _
    refine congrArg _ (funext fun a => Fin.ext ?_)
    match a with
    | ⟨0, _⟩ => show win0_1.index t (0 : Fin 3) * 1 + 1 * 0 = win0_2.index t (0 : Fin 3) * 1 + 1 * (y 0).val; have hy0 : (y 0).val < 1 := (y 0).isLt; omega
    | ⟨1, _⟩ => show win0_1.index t (1 : Fin 3) * 512 + 1 * k.val = k.val; omega
    | ⟨2, _⟩ => show win0_1.index t (2 : Fin 3) * 256 + 1 * (y 2).val = win0_2.index t (2 : Fin 3) * 256 + 1 * (y 2).val; omega

/-- An entry of the result is in point `t`'s block iff each coordinate is in the block's range on its axis. -/
theorem mem_block (t : Fin cfg0.N) (i : S8x2048x256.Idx) :
    i ∈ ((cfg0.win 2).blk t).view.set ↔ ∀ a : Fin 3, win0_2.index t a * S1x512x256.size a ≤ (i a).val ∧ (i a).val < win0_2.index t a * S1x512x256.size a + S1x512x256.size a := by
  show i ∈ ((View.whole main_v0).slice (win0_2.rect t)).set ↔ _
  rw [View.set_slice_whole, Rect.mem_set_unit]
  exact Iff.rfl

/-- Every entry `(b, l, c)` of the result is in the block of the point with batch `b` and row block `l / 512`. -/
theorem cover (i : S8x2048x256.Idx) : ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 256 := (i 2).isLt
  obtain ⟨t, ht⟩ := index_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 256 ≤ (i 2).val ∧ (i 2).val < win0_2.index t (2 : Fin 3) * 256 + 256; omega

/-- After the run the result array is the batched product of the two argument arrays. -/
theorem final (c : Dev nD) : (dats m 0 c).arrAt 2 cfg0.N = bmm (V m c main_arg0) (V m c main_arg1) :=
  (dats m 0 c).arrAt_eq_of_cover 2 (bmm (V m c main_arg0) (V m c main_arg1)) (fun t _ => flushed_eq m c t) cover

/-- Every weakly fair execution of the kernel program terminates with the result array at the batched product of the
    arguments as launched, the arguments unchanged. -/
theorem run : θ_run defs (onTc (τ := τ) (main (F := Ideal))) ⟨m, fun _ => 0, ρ⟩ fun r => ∀ c : Dev nD,
      r.2.mem ((c : Thread nD τ).loc main_v0) = bmm (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Bmm

end
-- ==== Proof.lean ====
/- The kernel and its reference compute the same batched matrix product.

   Arguments: `text : [8, 512, 256]` and `alignment : [8, 2048, 512]`; result `[8, 2048, 256]`. The reference is one
   general product, batched on the first axis, contracting alignment's last axis with text's middle axis. The kernel
   walks a grid of `8 × 4` points `(b, i)`; at a point it multiplies rows `512 i … 512 i + 511` of batch `b` of
   alignment by batch `b` of text, into a zero accumulator, and writes the `512 × 256` result to the same rows of
   batch `b` of the output.

   On the extended reals both are the array whose entry `(b, l, c)` is `∑ k < 512, alignment (b, l, k) * text (b, k, c)`
   (`Cert.Bmm.bmm`): the reference because a general product read at an entry is that sum (Proof/ReferenceProduct.lean);
   the kernel because a product into zero is that sum on the block, every block is read and written where the output's
   block says, and the 32 output blocks cover the result (Proof/BlockProduct.lean, Proof/KernelProduct.lean). The two sums
   have the same terms in the same order, so no law of the extended reals is used and the inputs' finiteness is never
   opened. The idealization rewrote nothing, so that conjunct is `True`. -/
import proofs.«167559_g20229295964416_cont_8to1_1184_2_alg».proof.Defs
import proofs.«167559_g20229295964416_cont_8to1_1184_2_alg».proof.Proof.Gen.Kernel
import proofs.«167559_g20229295964416_cont_8to1_1184_2_alg».proof.Proof.Gen.Kernel.Skeleton
import proofs.«167559_g20229295964416_cont_8to1_1184_2_alg».proof.Proof.Gen.Kernel.Launch
import proofs.«167559_g20229295964416_cont_8to1_1184_2_alg».proof.Proof.Gen.Kernel.Points
import proofs.«167559_g20229295964416_cont_8to1_1184_2_alg».proof.Proof.Gen.Kernel.Frame
import proofs.«167559_g20229295964416_cont_8to1_1184_2_alg».proof.Proof.Gen.KernelIdeal
import proofs.«167559_g20229295964416_cont_8to1_1184_2_alg».proof.Proof.Gen.KernelIdeal.Skeleton
import proofs.«167559_g20229295964416_cont_8to1_1184_2_alg».proof.Proof.Gen.KernelIdeal.Launch
import proofs.«167559_g20229295964416_cont_8to1_1184_2_alg».proof.Proof.Gen.KernelIdeal.Points
import proofs.«167559_g20229295964416_cont_8to1_1184_2_alg».proof.Proof.Gen.KernelIdeal.Frame
import proofs.«167559_g20229295964416_cont_8to1_1184_2_alg».proof.Proof.Gen.ReferenceIdeal
import proofs.«167559_g20229295964416_cont_8to1_1184_2_alg».proof.Proof.Gen.Pre_finite_inputs
import proofs.«167559_g20229295964416_cont_8to1_1184_2_alg».proof.Proof.Gen.KernelIdeal.Value
import proofs.«167559_g20229295964416_cont_8to1_1184_2_alg».proof.Proof.Gen.ReferenceIdeal.Run
import proofs.«167559_g20229295964416_cont_8to1_1184_2_alg».proof.Proof.Gen.ReferenceIdeal.Read
import proofs.«167559_g20229295964416_cont_8to1_1184_2_alg».proof.Proof.BatchedProduct
import proofs.«167559_g20229295964416_cont_8to1_1184_2_alg».proof.Proof.ReferenceProduct
import proofs.«167559_g20229295964416_cont_8to1_1184_2_alg».proof.Proof.KernelProduct
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the result array at the batched product of
    those arguments: the kernel by its blocks, the reference by its one general product. -/
theorem algebraic : Cert.algebraic_KernelIdeal_ReferenceIdeal := by
  intro m ρ m' ρ' _ hagree
  refine ⟨fun c => Cert.Bmm.bmm (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.Bmm.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq, Cert.Bmm.reference_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
